-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x3DB504F3#32 ((1048576 / 11863283 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  reducesTo_S16x2048x2048_S16x2048_d2 : S16x2048x2048.ReducesTo [2] S16x2048
  reducesTo_S16x2048_S_d0_1 : S16x2048.ReducesTo [0, 1] S_

variable [Facts]

def fn_part1 {F : FTy → Type} [FloatOps F] (main_v13 : IVec S_ 1) (main_v15 : IVec S16x2048 1) (main_c_5 : IVec S_ 1) : IVec S_ 1 :=
  let main_v16 : IVec S_ 1 := (fun x v => Host.reduce IntOp.andi x v reducesTo_S16x2048_S_d0_1 h_S_) main_v15 main_c_5
  let main_v17 : IVec S_ 1 := andi main_v13 main_v16
  main_v17

def fn {F : FTy → Type} [FloatOps F] (main_arg0 : FVec F S16x2048x128 .f32) (main_arg1 : FVec F S16x2048x128 .f32) (main_arg2 : FVec F S16x2048x128 .f32) (main_arg3 : IVec S16x2048x2048 1) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  let main_v14 : IVec S16x2048x2048 1 := noti main_arg3
  let main_c_4 : IVec S_ 1 := constantI S_ 1 0#1
  let main_v15 : IVec S16x2048 1 := (fun x v => Host.reduce IntOp.ori x v reducesTo_S16x2048x2048_S16x2048_d2 h_S_) main_v14 main_c_4
  let main_c_5 : IVec S_ 1 := constantI S_ 1 1#1
  fn_part1 (F := F) main_v13 main_v15 main_c_5
-- ==== Kernel.lean ====
abbrev S16x2048x128 : Shape := ⟨3, ![16, 2048, 128]⟩
abbrev S16x2048x2048 : Shape := ⟨3, ![16, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .i32⟩
  | .hbm, ⟨5, _⟩ => ⟨S16x2048x128, .f32⟩
  | .hbm, ⟨6, _⟩ => ⟨S16x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x512x2048, .i32⟩
  | .local _ .vmem, ⟨5, _⟩ => ⟨S1x512x2048, .i32⟩
  | .local _ .vmem, ⟨6, _⟩ => ⟨S1x512x128, .f32⟩
  | .local _ .vmem, ⟨7, _⟩ => ⟨S1x512x128, .f32⟩
  | .local _ .vmem, ⟨8, _⟩ => ⟨S1x512x2048, .f32⟩
  | .local _ .vmem, ⟨9, _⟩ => ⟨S1x512x2048, .f32⟩
  | .local _ .vmem, ⟨10, _⟩ => ⟨S2048x128, .bf16⟩
  | .local _ .vmem, ⟨11, _⟩ => ⟨S2048x128, .bf16⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x128_S1x512x128 : S512x128.ShapeCasts S1x512x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .f32 = 32 ∨ (Rect.block (s := S16x2048x128) S1x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .i32 = 32 ∨ (Rect.block (s := S16x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S16x2048x128.size a
  hwx0_4 : ∀ i : grid0.Coords, EltTy.bits .f32 = 32 ∨ (Rect.block (s := S16x2048x128) S1x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x2048, .f32⟩
  | .hbm, ⟨25, _⟩ => ⟨S16x2048x2048, .f32⟩
  | .hbm, ⟨26, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.SoftmaxLaws.lean ====
/-
  Extended-real facts behind masked softmax attention, free of any program.

  A logit row `s : ι → EReal` holds, per key, either `⊥` (the key is masked) or a real number (the scaled
  dot product). Its maximum `M` is taken from `⊥`. The weights are `exp (s j - M)`, normalised by their sum `l`.

  * The literals: `1`, `0`, `-∞` and the temperature `11863283 / 2^20` (the f32 nearest to `√128`).
  * Dividing by the temperature is multiplying by its reciprocal `2^20 / 11863283`.
  * When `l ≠ 0`, multiplying by `1 / l` is dividing by `l`.
  * If some key of the row is unmasked then `M` is real, that key's weight is positive and every weight is
    non-negative, so `l ≠ 0`.
-/
import Idealize.ShloMosaic.PureOps.Ideal
import Mathlib.Algebra.Order.BigOperators.Group.Finset
import Mathlib.Data.Finset.Fold

noncomputable section

namespace Cert.Softmax

open Idealize.ShloMosaic

/-! ## The literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_negInf : Ideal.ofBits .f32 0xFF800000#32 = ⊥ := by
  simp [Ideal.ofBits, Ideal.ieee]

/-- The temperature literal is `(2^23 + 3474675) · 2^(-20)`. -/
theorem ofBits_temp : Ideal.ofBits .f32 0x413504F3#32 = ((11863283 / 1048576 : ℝ) : EReal) := by
  simp [Ideal.ofBits, Ideal.ieee, -EReal.coe_mul]; norm_num

/-! ## The two laws that join the sides -/

/-- Dividing by the temperature is multiplying by its reciprocal, on every extended real. -/
theorem div_temp (x : EReal) :
    Ideal.div x (Ideal.ofBits .f32 0x413504F3#32) = x * ((1048576 / 11863283 : ℝ) : EReal) := by
  rw [ofBits_temp, Ideal.div_coe (by norm_num : (11863283 / 1048576 : ℝ) ≠ 0)]
  congr 2; norm_num

/-- Off a zero denominator, the product with the reciprocal is the quotient. -/
theorem mul_one_div (p l : EReal) (hl : l ≠ 0) : p * Ideal.div 1 l = Ideal.div p l := by
  unfold Ideal.div
  rw [if_neg hl, if_neg hl, one_mul]

/-! ## The normaliser of a row with an unmasked key is not zero -/

section Row

variable {ι : Type} [Fintype ι] [DecidableEq ι]

/-- The row maximum, from `-∞`. -/
def rowMax (s : ι → EReal) : EReal := Finset.univ.fold max ⊥ s

/-- The row's normaliser: the sum of the shifted exponentials. -/
def rowSum (s : ι → EReal) : EReal := ∑ j, Ideal.exp (s j - rowMax s)

theorem exp_nonneg (x : EReal) : 0 ≤ Ideal.exp x := by
  induction x using EReal.rec with
  | bot => simp
  | top => simp
  | coe r => rw [Ideal.exp_coe]; exact_mod_cast (Real.exp_pos r).le

theorem rowMax_real (s : ι → EReal) (hs : ∀ j, s j = ⊥ ∨ ∃ r : ℝ, s j = r) (j₀ : ι) (h₀ : ∃ r : ℝ, s j₀ = r) :
    ∃ M : ℝ, rowMax s = M := by
  obtain ⟨r₀, hr₀⟩ := h₀
  have hge : (r₀ : EReal) ≤ rowMax s := by
    unfold rowMax
    rw [Finset.le_fold_max]
    exact Or.inr ⟨j₀, Finset.mem_univ _, hr₀ ▸ le_rfl⟩
  have hlt : rowMax s < ⊤ := by
    unfold rowMax
    rw [Finset.fold_max_lt]
    refine ⟨bot_lt_top, fun j _ => ?_⟩
    rcases hs j with h | ⟨r, h⟩
    · rw [h]; exact bot_lt_top
    · rw [h]; exact EReal.coe_lt_top r
  have hbot : rowMax s ≠ ⊥ := fun h => by
    rw [h] at hge; exact absurd hge (by simp)
  exact ⟨(rowMax s).toReal, (EReal.coe_toReal hlt.ne hbot).symm⟩

theorem rowSum_ne_zero (s : ι → EReal) (hs : ∀ j, s j = ⊥ ∨ ∃ r : ℝ, s j = r) (j₀ : ι) (h₀ : ∃ r : ℝ, s j₀ = r) :
    rowSum s ≠ 0 := by
  obtain ⟨M, hM⟩ := rowMax_real s hs j₀ h₀
  obtain ⟨r₀, hr₀⟩ := h₀
  have hpos : 0 < Ideal.exp (s j₀ - rowMax s) := by
    rw [hr₀, hM, ← EReal.coe_sub, Ideal.exp_coe]; exact_mod_cast Real.exp_pos _
  have hle : Ideal.exp (s j₀ - rowMax s) ≤ rowSum s :=
    Finset.single_le_sum (f := fun j => Ideal.exp (s j - rowMax s)) (fun j _ => exp_nonneg _) (Finset.mem_univ j₀)
  exact (lt_of_lt_of_le hpos hle).ne'

end Row

end Cert.Softmax

end
-- ==== Proof.AttnSpec.lean ====
/-
  Masked softmax attention as one function of the argument arrays, index by index, on the extended reals.

  For batch `b`, query row `i` and key `j` the logit is `-∞` where the mask bit is set and otherwise the
  dot product of query row `i` with key row `j`, times `2^20 / 11863283` (the reciprocal of the temperature).
  A row's weights are `exp (logit - row maximum)` times the reciprocal of their sum; the output row is the
  weights' combination of the value rows.

  Everything is first said for ONE row, over plain coordinate functions, so that a block of 512 query rows and
  the whole array are both instances; `attn` and `out` are the instances at the whole arrays.
-/
import Idealize.ShloMosaic.Lib.ValueIdx
import proofs.«413374_j4724464026136_3_alg».proof.Proof.SoftmaxLaws

noncomputable section

namespace Cert.Attn

open Idealize.ShloMosaic Idealize.ShloMosaic.ValueIdx Cert.Softmax

/-- The reciprocal of the temperature. -/
abbrev invTemp : EReal := ((1048576 / 11863283 : ℝ) : EReal)

/-! ## One row -/

/-- A row of logits: query row `qr` against the key rows `kk`, keys with a set mask bit at `-∞`. -/
def logitRow (qr : Fin 128 → EReal) (kk : Fin 2048 → Fin 128 → EReal) (mr : Fin 2048 → BitVec 1) : Fin 2048 → EReal :=
  fun j => if mr j = 1#1 then ⊥ else (∑ d : Fin 128, qr d * kk j d) * invTemp

/-- The row's weights: shifted exponentials times the reciprocal of their sum. -/
def weightRow (s : Fin 2048 → EReal) : Fin 2048 → EReal :=
  fun j => Ideal.exp (s j - rowMax s) * Ideal.div 1 (rowSum s)

/-- The row's output: the weights' combination of the value rows. -/
def outRow (a : Fin 2048 → EReal) (vv : Fin 2048 → Fin 128 → EReal) : Fin 128 → EReal :=
  fun d => ∑ j : Fin 2048, a j * vv j d

/-! ## The whole arrays -/

abbrev SQ : Shape := ⟨3, ![16, 2048, 128]⟩
abbrev SM : Shape := ⟨3, ![16, 2048, 2048]⟩

variable (q k v : SQ.Idx → EReal) (msk : SM.Idx → BitVec 1)

/-- Row `(b, i)` of the logits. -/
def logits (b : Fin 16) (i : Fin 2048) : Fin 2048 → EReal :=
  logitRow (fun d => q (ix3 b i d)) (fun j d => k (ix3 b j d)) (fun j => msk (ix3 b i j))

/-- The attention weights. -/
def attn : SM.Idx → EReal := fun x => weightRow (logits q k msk (x 0) (x 1)) (x 2)

/-- The attention output. -/
def out : SQ.Idx → EReal :=
  fun x => outRow (fun j => attn q k msk (ix3 (x 0) (x 1) j)) (fun j d => v (ix3 (x 0) j d)) (x 2)

/-! ## Rows with an unmasked key, of finite queries and keys, have a nonzero normaliser -/

theorem coe_finset_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A logit is `-∞` or real when the query row and the key rows are real. -/
theorem logitRow_bot_or_real (qr : Fin 128 → EReal) (kk : Fin 2048 → Fin 128 → EReal) (mr : Fin 2048 → BitVec 1)
    (hq : ∀ d, ∃ r : ℝ, qr d = r) (hk : ∀ j d, ∃ r : ℝ, kk j d = r) (j : Fin 2048) :
    logitRow qr kk mr j = ⊥ ∨ ∃ r : ℝ, logitRow qr kk mr j = r := by
  unfold logitRow
  by_cases hm : mr j = 1#1
  · left; rw [if_pos hm]
  · right; rw [if_neg hm]
    choose a ha using hq
    choose bb hb using hk
    refine ⟨(∑ d : Fin 128, a d * bb j d) * (1048576 / 11863283 : ℝ), ?_⟩
    rw [EReal.coe_mul, coe_finset_sum]
    congr 1
    exact Finset.sum_congr rfl fun d _ => by rw [ha, hb, EReal.coe_mul]

/-- With an unmasked key the logit there is real. -/
theorem logitRow_real_of_unmasked (qr : Fin 128 → EReal) (kk : Fin 2048 → Fin 128 → EReal) (mr : Fin 2048 → BitVec 1)
    (hq : ∀ d, ∃ r : ℝ, qr d = r) (hk : ∀ j d, ∃ r : ℝ, kk j d = r) (j : Fin 2048) (hm : mr j ≠ 1#1) :
    ∃ r : ℝ, logitRow qr kk mr j = r := by
  rcases logitRow_bot_or_real qr kk mr hq hk j with h | h
  · exfalso; unfold logitRow at h; rw [if_neg hm] at h
    choose a ha using hq
    choose bb hb using hk
    have : (∑ d : Fin 128, qr d * kk j d) * invTemp = (((∑ d : Fin 128, a d * bb j d) * (1048576 / 11863283 : ℝ) : ℝ) : EReal) := by
      rw [EReal.coe_mul, coe_finset_sum]; congr 1
      exact Finset.sum_congr rfl fun d _ => by rw [ha, hb, EReal.coe_mul]
    rw [this] at h; exact EReal.coe_ne_bot _ h
  · exact h

/-- The normaliser of every row is nonzero when queries and keys are finite and every row has an unmasked key. -/
theorem rowSum_logits_ne_zero (hq : ∀ x, ∃ r : ℝ, q x = r) (hk : ∀ x, ∃ r : ℝ, k x = r)
    (hm : ∀ (b : Fin 16) (i : Fin 2048), ∃ j : Fin 2048, msk (ix3 b i j) ≠ 1#1) (b : Fin 16) (i : Fin 2048) :
    rowSum (logits q k msk b i) ≠ 0 := by
  obtain ⟨j₀, hj₀⟩ := hm b i
  unfold logits
  exact rowSum_ne_zero _ (logitRow_bot_or_real _ _ _ (fun d => hq _) (fun j d => hk _)) j₀
    (logitRow_real_of_unmasked _ _ _ (fun d => hq _) (fun j d => hk _) j₀ hj₀)

end Cert.Attn

end
-- ==== Proof.PreFacts.lean ====
/-
  What the precondition says of the arguments: every query and key entry is a real number, and every query row
  of the mask has a key whose bit is clear.
-/
import proofs.«413374_j4724464026136_3_alg».proof.Pre_finite_inputs
import proofs.«413374_j4724464026136_3_alg».proof.Proof.AttnSpec
import Idealize.ShloMosaic.Lib.ReduceAll
import Idealize.ShloMosaic.Lib.ValueIdx
import Idealize.ShloMosaic.PureOps.Ideal.Laws

noncomputable section

namespace Cert.Attn

open Idealize.ShloMosaic Idealize.ShloMosaic.ValueIdx

/-- The word `0x7F800000` denotes `+∞`. -/
private theorem ofBits_inf : Ideal.ofBits .f32 0x7F800000#32 = (⊤ : EReal) := by
  simp [Ideal.ofBits, Ideal.ieee]

/-- An extended real whose absolute value compares strictly below `+∞` is a real number: at `⊥` and at `⊤` the
    absolute value is `⊤`, which is not below itself. -/
private theorem real_of_abs_lt_inf (x : EReal)
    (h : FloatOps.cmpf (F := Ideal) (φ := .f32) .olt (FloatOps.absf x) (FloatOps.ofBits .f32 0x7F800000#32) = 1#1) :
    ∃ r : ℝ, x = (r : EReal) := by
  rw [Ideal.cmpf_def, Ideal.absf_def, Ideal.ofBits_def, ofBits_inf] at h
  induction x using EReal.rec with
  | bot => simp [Ideal.cmp] at h
  | top => simp [Ideal.cmp] at h
  | coe r => exact ⟨r, rfl⟩

/-- A fold by `or` over one-bit words, started at 0, that comes out 1 met a 1. -/
private theorem exists_of_fold_ori_eq_one {ι : Type} [DecidableEq ι] (f : ι → BitVec 1) (s : Finset ι)
    (h : s.fold IntOp.ori 0#1 f = 1#1) : ∃ n ∈ s, f n = 1#1 := by
  induction s using Finset.induction_on with
  | empty =>
    rw [Finset.fold_empty] at h
    exact absurd h (by decide)
  | insert a s ha ih =>
    rw [Finset.fold_insert ha] at h
    rcases IntOp.ori_eq_one.1 h with h1 | h1
    · exact ⟨a, Finset.mem_insert_self a s, h1⟩
    · obtain ⟨n, hn, hf⟩ := ih h1
      exact ⟨n, Finset.mem_insert_of_mem hn, hf⟩

/-- A one-bit word whose complement is 1 is not 1. -/
private theorem ne_one_of_not_eq_one (w : BitVec 1) (h : ~~~w = 1#1) : w ≠ 1#1 := by
  rcases BitVec.eq_zero_or_eq_one w with rfl | rfl
  · decide
  · exact absurd h (by decide)

theorem of_pre [Cert.Pre_finite_inputs.Facts]
    (q k v : FVec Ideal Cert.Pre_finite_inputs.S16x2048x128 .f32) (msk : IVec Cert.Pre_finite_inputs.S16x2048x2048 1)
    (h : Cert.Pre_finite_inputs.fn (F := Ideal) q k v msk = fun _ => 1#1) :
    (∀ x, ∃ r : ℝ, q x = (r : EReal)) ∧ (∀ x, ∃ r : ℝ, k x = (r : EReal))
      ∧ (∀ (b : Fin 16) (i : Fin 2048), ∃ j : Fin 2048, msk (ix3 b i j) ≠ 1#1) := by
  -- The precondition at its one index: a conjunction of four one-bit words.
  have h0 := congrFun h ValueIdx.ix0
  dsimp only [Cert.Pre_finite_inputs.fn, Cert.Pre_finite_inputs.fn_part1] at h0
  haveI : Subsingleton Cert.Pre_finite_inputs.S_.Idx := ⟨fun a b => funext fun d => d.elim0⟩
  obtain ⟨h123, h4⟩ := IntOp.andi_eq_one.1 h0
  obtain ⟨h12, h3⟩ := IntOp.andi_eq_one.1 h123
  obtain ⟨h1, h2⟩ := IntOp.andi_eq_one.1 h12
  refine ⟨fun x => ?_, fun x => ?_, fun b i => ?_⟩
  -- A conjunction over all axes that is 1 holds at every entry: |q x| < +∞, so q x is real; likewise k.
  · exact real_of_abs_lt_inf (q x) (Host.reduce_andi_all _ _ _ _ _ h1 x)
  · exact real_of_abs_lt_inf (k x) (Host.reduce_andi_all _ _ _ _ _ h2 x)
  -- The outer conjunction gives, at row (b, i), that the disjunction of the complemented bits along the key axis
  -- is 1: a fold by `or` from 0 over the keys j at the index (b, i, j), so one complemented bit is 1.
  · have e := Host.reduce_andi_all _ _ _ _ _ h4 (ix2 b i)
    have hr : Cert.Pre_finite_inputs.S16x2048x2048.Reduces [2] Cert.Pre_finite_inputs.S16x2048 := by decide
    rw [Host.reduce_eq_fold_single IntOp.ori _ _ _ hr] at e
    obtain ⟨j, -, hj⟩ := exists_of_fold_ori_eq_one _ _ e
    have hl : hr.lift (ix2 b i) j = ix3 b i j := by
      funext c
      match c with
      | ⟨0, _⟩ => exact Fin.ext rfl
      | ⟨1, _⟩ => exact Fin.ext rfl
      | ⟨2, _⟩ => exact Fin.ext rfl
    exact ⟨j, ne_one_of_not_eq_one _ ((congrArg (fun z => ~~~(msk z)) hl).symm.trans hj)⟩

end Cert.Attn

end
-- ==== Proof.RefValue.lean ====
/-
  The reference's two results are the specification's `attn` and `out`, index by index, wherever every row's
  normaliser is nonzero (there the reference's quotient by the sum is the product with its reciprocal, and its
  quotient by the temperature is the product with the reciprocal of the temperature everywhere).
-/
import proofs.«413374_j4724464026136_3_alg».proof.Proof.Gen.ReferenceIdeal.Read
import proofs.«413374_j4724464026136_3_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx
open Cert.Softmax Cert.Attn

/-- The logits stage at `(b, r, j)` is the specification's logit: `-∞` under a set mask bit, else the dot product
    of query row `r` and key row `j` times the reciprocal of the temperature. -/
theorem v3_at (x0 x1 : (⟨S16x2048x128, .f32⟩ : BufTy).Contents (Elt Ideal)) (x3 : (⟨S16x2048x2048, .i1⟩ : BufTy).Contents (Elt Ideal))
    (b : Fin 16) (r j : Fin 2048) :
    val_main_v3 (F := Ideal) x0 x1 x3 (ix3 b r j) = logits x0 x1 x3 b r j := by
  have el : ∀ k : Fin 128, lidx_main_v0 (ix3 b r j) k = ix3 b r k := fun k =>
    funext fun a => Fin.ext (by match a with | ⟨0, _⟩ => rfl | ⟨1, _⟩ => rfl | ⟨2, _⟩ => rfl)
  have er : ∀ k : Fin 128, ridx_main_v0 (ix3 b r j) k = ix3 b j k := fun k =>
    funext fun a => Fin.ext (by match a with | ⟨0, _⟩ => rfl | ⟨1, _⟩ => rfl | ⟨2, _⟩ => rfl)
  rw [val_main_v3_apply, val_main_call0_v1_apply, val_main_call0_v0_apply, val_main_cst_0_apply, val_main_v2_apply,
    val_main_v0_apply, val_main_v1_apply, val_main_cst_apply]
  simp only [el, er, Ideal.ofBits_def, Ideal.hostDivf_def, ofBits_negInf, div_temp]
  rfl

/-- The maximum stage at `(b, r)` is the row maximum of the logits of row `(b, r)`. -/
theorem v6_at (x0 x1 : (⟨S16x2048x128, .f32⟩ : BufTy).Contents (Elt Ideal)) (x3 : (⟨S16x2048x2048, .i1⟩ : BufTy).Contents (Elt Ideal))
    (b : Fin 16) (r : Fin 2048) :
    val_main_v6 (F := Ideal) x0 x1 x3 (ix2 b r) = rowMax (logits x0 x1 x3 b r) := by
  have hR : S16x2048x2048.Reduces [2] S16x2048 := by decide
  have hl : ∀ k : Fin 2048, hR.lift (ix2 b r) k = ix3 b r k := fun k =>
    funext fun a => Fin.ext (by match a with | ⟨0, _⟩ => rfl | ⟨1, _⟩ => rfl | ⟨2, _⟩ => rfl)
  have hf : val_main_v3 (F := Ideal) x0 x1 x3 ∘ hR.lift (ix2 b r) = logits x0 x1 x3 b r :=
    funext fun (k : Fin 2048) => (congrArg (val_main_v3 (F := Ideal) x0 x1 x3) (hl k)).trans (v3_at x0 x1 x3 b r k)
  rw [val_main_v6_apply, val_main_v5_apply, val_main_cst_2_apply]
  unfold val_main_v4
  rw [Host.reduce_eq_fold_single FloatOps.maximumf _ _ reducesTo_S16x2048x2048_S16x2048_d2 hR h_S_ (ix2 b r), hf,
    val_main_cst_1_apply]
  show max (Ideal.ofBits .f32 0xFF800000#32) (Finset.univ.fold max (Ideal.ofBits .f32 0xFF800000#32) (logits x0 x1 x3 b r))
    = rowMax (logits x0 x1 x3 b r)
  rw [ofBits_negInf]
  exact max_bot_left _

/-- The exponential stage at `(b, r, j)` is the exponential of the logit shifted by its row's maximum. -/
theorem v10_at (x0 x1 : (⟨S16x2048x128, .f32⟩ : BufTy).Contents (Elt Ideal)) (x3 : (⟨S16x2048x2048, .i1⟩ : BufTy).Contents (Elt Ideal))
    (b : Fin 16) (r j : Fin 2048) :
    val_main_v10 (F := Ideal) x0 x1 x3 (ix3 b r j)
      = Ideal.exp (logits x0 x1 x3 b r j - rowMax (logits x0 x1 x3 b r)) := by
  have e8 : idx_main_v7 (idx_main_v8 (ix3 b r j)) = ix2 b r :=
    funext fun a => Fin.ext (by match a with | ⟨0, _⟩ => rfl | ⟨1, _⟩ => rfl)
  rw [val_main_v10_apply, val_main_v9_apply, val_main_v8_apply, val_main_v7_apply, e8, v6_at, v3_at]
  simp only [Ideal.hostUnary_exp_def, Ideal.subf_def]

/-- The sum stage at `(b, r)` is the normaliser of row `(b, r)`: the sum starts from zero. -/
theorem v11_at (x0 x1 : (⟨S16x2048x128, .f32⟩ : BufTy).Contents (Elt Ideal)) (x3 : (⟨S16x2048x2048, .i1⟩ : BufTy).Contents (Elt Ideal))
    (b : Fin 16) (r : Fin 2048) :
    val_main_v11 (F := Ideal) x0 x1 x3 (ix2 b r) = rowSum (logits x0 x1 x3 b r) := by
  have e : ∀ k : Fin 2048, idx_main_v11 (ix2 b r) k = ix3 b r k := fun k =>
    funext fun a => Fin.ext (by match a with | ⟨0, _⟩ => rfl | ⟨1, _⟩ => rfl | ⟨2, _⟩ => rfl)
  rw [val_main_v11_apply, val_main_cst_3_apply]
  simp only [e, v10_at, Ideal.ofBits_def, ofBits_zero, zero_add]
  rfl

theorem attn_eq (x0 x1 : (⟨S16x2048x128, .f32⟩ : BufTy).Contents (Elt Ideal)) (x3 : (⟨S16x2048x2048, .i1⟩ : BufTy).Contents (Elt Ideal))
    (H : ∀ (b : Fin 16) (i : Fin 2048), rowSum (logits x0 x1 x3 b i) ≠ 0) :
    val_main_v14 (F := Ideal) x0 x1 x3 = attn x0 x1 x3 := by
  funext i
  obtain ⟨b, r, j, rfl⟩ : ∃ (b : Fin 16) (r : Fin 2048) (j : Fin 2048), i = ix3 b r j := ⟨i 0, i 1, i 2, eq_ix3 i⟩
  have e13 : idx_main_v12 (idx_main_v13 (ix3 b r j)) = ix2 b r :=
    funext fun a => Fin.ext (by match a with | ⟨0, _⟩ => rfl | ⟨1, _⟩ => rfl)
  rw [val_main_v14_apply, val_main_v13_apply, val_main_v12_apply, e13, v11_at, v10_at, Ideal.hostDivf_def]
  exact (mul_one_div _ _ (H b r)).symm

theorem out_eq (x0 x1 x2 : (⟨S16x2048x128, .f32⟩ : BufTy).Contents (Elt Ideal)) (x3 : (⟨S16x2048x2048, .i1⟩ : BufTy).Contents (Elt Ideal))
    (H : ∀ (b : Fin 16) (i : Fin 2048), rowSum (logits x0 x1 x3 b i) ≠ 0) :
    val_main_v15 (F := Ideal) x0 x1 x2 x3 = out x0 x1 x2 x3 := by
  funext i
  obtain ⟨b, r, d, rfl⟩ : ∃ (b : Fin 16) (r : Fin 2048) (d : Fin 128), i = ix3 b r d := ⟨i 0, i 1, i 2, eq_ix3 i⟩
  have el : ∀ k : Fin 2048, lidx_main_v15 (ix3 b r d) k = ix3 b r k := fun k =>
    funext fun a => Fin.ext (by match a with | ⟨0, _⟩ => rfl | ⟨1, _⟩ => rfl | ⟨2, _⟩ => rfl)
  have er : ∀ k : Fin 2048, ridx_main_v15 (ix3 b r d) k = ix3 b k d := fun k =>
    funext fun a => Fin.ext (by match a with | ⟨0, _⟩ => rfl | ⟨1, _⟩ => rfl | ⟨2, _⟩ => rfl)
  rw [val_main_v15_apply, attn_eq x0 x1 x3 H]
  simp only [el, er]
  rfl

end Cert.ReferenceIdeal.RefValue

end
-- ==== Proof.Pieces.lean ====
/-
  What one run of the body leaves behind, as the body's own arithmetic.

  At the first query tile of a batch the body first fills the two carried buffers from the key and value blocks,
  then computes from them; at the other tiles it computes from what the buffers already hold. In both cases the
  weight block is the softmax payload of (query block, key rows, mask block), the output block the product payload,
  each stored whole; the carried buffers end as the fills at a first tile and unchanged otherwise.
-/
import proofs.«413374_j4724464026136_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F] [Named F]

/-- The rank-2 offset vector of a whole-buffer rectangle is zero on every axis. -/
theorem offsets2_eq_zero : (![0, 0] : Fin 2 → Nat) = fun _ => 0 := funext fun a => by fin_cases a <;> rfl

/-- The rank-3 offset vector of a whole-block rectangle is zero on every axis. -/
theorem offsets3_eq_zero : (![0, 0, 0] : Fin 3 → Nat) = fun _ => 0 := funext fun a => by fin_cases a <;> rfl

/-! ## A first tile of a batch -/

theorem sout0_A_0_eq (c : Dev nD) (i : grid0.Coords) (arg2 : Memref sig .tc .vmem S1x512x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x512x2048 .i32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : cond0_0 i)
    (x0 : Vec F S1x512x128 .f32) (x1 : Vec F S1x2048x128 .f32) (x2 : Vec F S1x2048x128 .f32) (x3 : Vec F S1x512x2048 .i32) :
    sout0_A_0 c i arg2 harg2 arg3 harg3 arg4 harg4 arg5 harg5 arg6 harg6 arg7 harg7 arg8 harg8 arg9 harg9 hc0 x0 x1 x2 x3 = k0_pay2 x1 := by
  -- the one covering store's payload, its load reading the whole key block
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero offsets2_eq_zero]
  simp only [View.readAt_eq_ld, harg3.read_unread, View.ld_unit_zero (S := S1x2048x128) offsets3_eq_zero]

theorem sout0_A_1_eq (c : Dev nD) (i : grid0.Coords) (arg2 : Memref sig .tc .vmem S1x512x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x512x2048 .i32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : cond0_0 i)
    (x0 : Vec F S1x512x128 .f32) (x1 : Vec F S1x2048x128 .f32) (x2 : Vec F S1x2048x128 .f32) (x3 : Vec F S1x512x2048 .i32) :
    sout0_A_1 c i arg2 harg2 arg3 harg3 arg4 harg4 arg5 harg5 arg6 harg6 arg7 harg7 arg8 harg8 arg9 harg9 hc0 x0 x1 x2 x3 = k0_pay3 x2 := by
  -- the one covering store's payload, its load reading the whole value block
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero offsets2_eq_zero]
  simp only [View.readAt_eq_ld, harg4.read_unread, View.ld_unit_zero (S := S1x2048x128) offsets3_eq_zero]

theorem out0_A_5_eq (c : Dev nD) (i : grid0.Coords) (arg2 : Memref sig .tc .vmem S1x512x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x512x2048 .i32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : cond0_0 i)
    (x0 : Vec F S1x512x128 .f32) (x1 : Vec F S1x2048x128 .f32) (x2 : Vec F S1x2048x128 .f32) (x3 : Vec F S1x512x2048 .i32) :
    out0_A_5 c i arg2 harg2 arg3 harg3 arg4 harg4 arg5 harg5 arg6 harg6 arg7 harg7 arg8 harg8 arg9 harg9 hc0 x0 x1 x2 x3 = k0_pay5 x0 (k0_pay2 x1) x3 := by
  -- the weight block's one covering store; the key rows it reads are the fill just stored, read back whole
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero (S := S1x512x2048) offsets3_eq_zero]
  simp only [View.readAt_eq_ld, harg2.read_unread, harg3.read_unread, harg5.read_unread,
    View.readCov_unit_zero (S := S2048x128) _ offsets2_eq_zero,
    View.ld_unit_zero (S := S1x512x128) offsets3_eq_zero, View.ld_unit_zero (S := S1x2048x128) offsets3_eq_zero,
    View.ld_unit_zero (S := S1x512x2048) offsets3_eq_zero]

theorem out0_A_4_eq (c : Dev nD) (i : grid0.Coords) (arg2 : Memref sig .tc .vmem S1x512x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x512x2048 .i32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : cond0_0 i)
    (x0 : Vec F S1x512x128 .f32) (x1 : Vec F S1x2048x128 .f32) (x2 : Vec F S1x2048x128 .f32) (x3 : Vec F S1x512x2048 .i32) :
    out0_A_4 c i arg2 harg2 arg3 harg3 arg4 harg4 arg5 harg5 arg6 harg6 arg7 harg7 arg8 harg8 arg9 harg9 hc0 x0 x1 x2 x3 = k0_pay1 (k0_pay6 x0 (k0_pay2 x1) (k0_pay3 x2) x3) := by
  -- the output block's one covering store; key and value rows are the two fills just stored, read back whole
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero (S := S1x512x128) offsets3_eq_zero]
  simp only [View.readAt_eq_ld, harg2.read_unread, harg3.read_unread, harg4.read_unread, harg5.read_unread,
    View.readCov_unit_zero (S := S2048x128) _ offsets2_eq_zero,
    View.ld_unit_zero (S := S1x512x128) offsets3_eq_zero, View.ld_unit_zero (S := S1x2048x128) offsets3_eq_zero,
    View.ld_unit_zero (S := S1x512x2048) offsets3_eq_zero]

/-! ## A later tile of a batch -/

theorem out0_B_5_eq (c : Dev nD) (i : grid0.Coords) (arg2 : Memref sig .tc .vmem S1x512x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x512x2048 .i32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : ¬cond0_0 i)
    (x0 : Vec F S1x512x128 .f32) (x1 : Vec F S1x2048x128 .f32) (x2 : Vec F S1x2048x128 .f32) (x3 : Vec F S1x512x2048 .i32) (xs0 : Vec F S2048x128 .bf16) (xs1 : Vec F S2048x128 .bf16) :
    out0_B_5 c i arg2 harg2 arg3 harg3 arg4 harg4 arg5 harg5 arg6 harg6 arg7 harg7 arg8 harg8 arg9 harg9 hc0 x0 x1 x2 x3 xs0 xs1 = k0_pay5 x0 xs0 x3 := by
  -- the weight block's one covering store; the key rows are what the carried buffer already holds
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero (S := S1x512x2048) offsets3_eq_zero]
  simp only [View.readAt_eq_ld, harg2.read_unread, harg5.read_unread, harg8.read_unread,
    View.ld_unit_zero (S := S2048x128) offsets2_eq_zero,
    View.ld_unit_zero (S := S1x512x128) offsets3_eq_zero, View.ld_unit_zero (S := S1x512x2048) offsets3_eq_zero]

theorem out0_B_4_eq (c : Dev nD) (i : grid0.Coords) (arg2 : Memref sig .tc .vmem S1x512x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x512x2048 .i32) (harg5 : arg5.IsWhole) (arg6 : Memref sig .tc .vmem S1x512x128 .f32) (harg6 : arg6.IsWhole) (arg7 : Memref sig .tc .vmem S1x512x2048 .f32) (harg7 : arg7.IsWhole) (arg8 : Memref sig .tc .vmem S2048x128 .bf16) (harg8 : arg8.IsWhole) (arg9 : Memref sig .tc .vmem S2048x128 .bf16) (harg9 : arg9.IsWhole) (hc0 : ¬cond0_0 i)
    (x0 : Vec F S1x512x128 .f32) (x1 : Vec F S1x2048x128 .f32) (x2 : Vec F S1x2048x128 .f32) (x3 : Vec F S1x512x2048 .i32) (xs0 : Vec F S2048x128 .bf16) (xs1 : Vec F S2048x128 .bf16) :
    out0_B_4 c i arg2 harg2 arg3 harg3 arg4 harg4 arg5 harg5 arg6 harg6 arg7 harg7 arg8 harg8 arg9 harg9 hc0 x0 x1 x2 x3 xs0 xs1 = k0_pay1 (k0_pay6 x0 xs0 xs1 x3) := by
  -- the output block's one covering store; key and value rows are what the two carried buffers already hold
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero (S := S1x512x128) offsets3_eq_zero]
  simp only [View.readAt_eq_ld, harg2.read_unread, harg5.read_unread, harg8.read_unread, harg9.read_unread,
    View.ld_unit_zero (S := S2048x128) offsets2_eq_zero,
    View.ld_unit_zero (S := S1x512x128) offsets3_eq_zero, View.ld_unit_zero (S := S1x512x2048) offsets3_eq_zero]

end Cert.KernelIdeal.Pieces

end
-- ==== Proof.Scratch.lean ====
/-
  What the two carried buffers hold after any grid point: the key rows and the value rows of the point's batch.

  A batch's four query tiles are consecutive points. The first fills both buffers from the batch's key and value
  blocks; the other three leave them alone, and their key and value blocks are the same blocks (the index map of
  those windows ignores the tile coordinate). So by induction along the points the buffers hold the fills of the
  current point's own blocks.
-/
import proofs.«413374_j4724464026136_3_alg».proof.Proof.Gen.KernelIdeal.Frame
import proofs.«413374_j4724464026136_3_alg».proof.Proof.Pieces

set_option maxRecDepth 16384

noncomputable section

namespace Cert.KernelIdeal.Scratch

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- The key block of point `t`, at its literal type. -/
abbrev kblk (c : Dev nD) (t : Fin cfg0.N) : Vec F S1x2048x128 .f32 := iblk m c 1 t
/-- The value block of point `t`, at its literal type. -/
abbrev vblk (c : Dev nD) (t : Fin cfg0.N) : Vec F S1x2048x128 .f32 := iblk m c 2 t

/-- What a fetch of the key window at point `t` puts in its buffer is the point's key block (the window is uncut). -/
theorem fetched_key (c : Dev nD) (t : Fin cfg0.N) (d : Vec F S1x2048x128 .f32) :
    (dats m 0 c).fetched 1 t d = kblk m c t := by
  unfold Pipeline.Dat.fetched Pipeline.Dat.blockOf kblk iblk; rw [A_eq m c 1]; rfl

/-- What a fetch of the value window at point `t` puts in its buffer is the point's value block (the window is uncut). -/
theorem fetched_value (c : Dev nD) (t : Fin cfg0.N) (d : Vec F S1x2048x128 .f32) :
    (dats m 0 c).fetched 2 t d = vblk m c t := by
  unfold Pipeline.Dat.fetched Pipeline.Dat.blockOf vblk iblk; rw [A_eq m c 2]; rfl

/-- A point that is not the first tile of its batch has the key block of the point before: the key window's
    block index does not move there. -/
theorem kblk_prev (c : Dev nD) (t : Fin cfg0.N) (h0 : ¬t.val % 4 = 0) :
    kblk m c t = kblk m c ⟨t.val - 1, Nat.lt_of_le_of_lt (Nat.sub_le _ _) t.isLt⟩ := by
  have hf : (cfg0.win 1).fetch t = false := by
    rw [← Bool.not_eq_true]; exact fun h => h0 ((fetch0_1 t).mp h)
  obtain ⟨_, hix⟩ := (cfg0.win 1).index_eq_of_fetch rfl t hf
  exact (fetched_key m c t (kblk m c t)).symm.trans
    (((dats m 0 c).fetched_congr 1 hix rfl (kblk m c t)).trans (fetched_key m c _ (kblk m c t)))

/-- A point that is not the first tile of its batch has the value block of the point before: the value window's
    block index does not move there. -/
theorem vblk_prev (c : Dev nD) (t : Fin cfg0.N) (h0 : ¬t.val % 4 = 0) :
    vblk m c t = vblk m c ⟨t.val - 1, Nat.lt_of_le_of_lt (Nat.sub_le _ _) t.isLt⟩ := by
  have hf : (cfg0.win 2).fetch t = false := by
    rw [← Bool.not_eq_true]; exact fun h => h0 ((fetch0_2 t).mp h)
  obtain ⟨_, hix⟩ := (cfg0.win 2).index_eq_of_fetch rfl t hf
  exact (fetched_value m c t (vblk m c t)).symm.trans
    (((dats m 0 c).fetched_congr 2 hix rfl (vblk m c t)).trans (fetched_value m c _ (vblk m c t)))

/-- The claim at the point numbered `n`, by induction along the points. -/
theorem carried_at (c : Dev nD) : ∀ (n : ℕ) (hn : n < cfg0.N),
    (outsAt0 m c n hn).2.2.1 = k0_pay2 (kblk m c ⟨n, hn⟩) ∧ (outsAt0 m c n hn).2.2.2 = k0_pay3 (vblk m c ⟨n, hn⟩) := by
  intro n
  induction n using Nat.strong_induction_on with
  | _ n ih =>
    intro hn
    by_cases h0 : n % 4 = 0
    · -- the first tile of a batch fills both buffers from the point's own blocks
      rw [outsAt0_A m c ⟨n, hn⟩ h0]; dsimp only
      exact ⟨Pieces.sout0_A_0_eq (F := F) c (grid0.coords ⟨n, hn⟩) (ms0_0 ⟨n, hn⟩) (hs0_0 ⟨n, hn⟩) (ms0_1 ⟨n, hn⟩)
          (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩)
          (ms0_5 ⟨n, hn⟩) (hs0_5 ⟨n, hn⟩) scM0_0 (Memref.isWhole_whole _) scM0_1 (Memref.isWhole_whole _)
          ((hcond0_0 ⟨n, hn⟩).mpr h0) (iblk m c 0 ⟨n, hn⟩) (iblk m c 1 ⟨n, hn⟩) (iblk m c 2 ⟨n, hn⟩) (iblk m c 3 ⟨n, hn⟩),
        Pieces.sout0_A_1_eq (F := F) c (grid0.coords ⟨n, hn⟩) (ms0_0 ⟨n, hn⟩) (hs0_0 ⟨n, hn⟩) (ms0_1 ⟨n, hn⟩)
          (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩)
          (ms0_5 ⟨n, hn⟩) (hs0_5 ⟨n, hn⟩) scM0_0 (Memref.isWhole_whole _) scM0_1 (Memref.isWhole_whole _)
          ((hcond0_0 ⟨n, hn⟩).mpr h0) (iblk m c 0 ⟨n, hn⟩) (iblk m c 1 ⟨n, hn⟩) (iblk m c 2 ⟨n, hn⟩) (iblk m c 3 ⟨n, hn⟩)⟩
    · -- any other tile leaves the buffers as the point before left them, and reads that point's blocks
      have ih' := ih (n - 1) (by omega) (Nat.lt_of_le_of_lt (Nat.sub_le _ _) hn)
      rw [outsAt0_B m c ⟨n, hn⟩ h0]; dsimp only
      unfold sout0_B_0 sout0_B_1
      exact ⟨ih'.1.trans (congrArg (k0_pay2 (F := F)) (kblk_prev m c ⟨n, hn⟩ h0).symm),
        ih'.2.trans (congrArg (k0_pay3 (F := F)) (vblk_prev m c ⟨n, hn⟩ h0).symm)⟩

theorem carried (c : Dev nD) (t : Fin cfg0.N) :
    (outsAt0 m c t.val t.isLt).2.2.1 = k0_pay2 (kblk m c t) ∧ (outsAt0 m c t.val t.isLt).2.2.2 = k0_pay3 (vblk m c t) :=
  carried_at m c t.val t.isLt

end Cert.KernelIdeal.Scratch

end
-- ==== Proof.LibColumns.lean ====
/- Three readings of layout operations at an index written by coordinates, at any extents and any element type:
   a one-column matrix broadcast along its rows; a column of a [1, a, b] block after its unit axis is dropped; a row of the
   transpose of such a block. Each composes the library's one-operation readings (a slice along one axis, a transpose, a
   dropped leading unit axis, a broadcast) for the shape a kernel body meets when it splits a block of 3-vectors
   into its coordinate columns (or, transposed, its coordinate rows) and broadcasts them against each other. -/
import Idealize.ShloMosaic.Lib.Pipeline.Value
import Idealize.ShloMosaic.Lib.ValueIdx
import Idealize.ShloMosaic.Lib.ValueLayout

namespace Cert.LibColumns

open Idealize.ShloMosaic Idealize.ShloMosaic.ValueIdx

/-- A one-column matrix [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a [1, a, b] block, taken (as the slice at column offset o = k) after the unit axis is dropped, reads at
    row r the block's entry (0, r, k). -/
theorem column_apply {α : Type} {a b : ℕ} (o : ℕ) (x : (⟨3, ![1, a, b]⟩ : Shape).Idx → α)
    (hc : (⟨3, ![1, a, b]⟩ : Shape).ShapeCasts ⟨2, ![a, b]⟩) (hs : (⟨2, ![a, b]⟩ : Shape).Slices ![0, o] ⟨2, ![a, 1]⟩)
    (r : Fin a) (k : Fin b) (hk : k.val = o) :
    extractStridedSlice ⟨2, ![a, 1]⟩ ![0, o] (shapeCast ⟨2, ![a, b]⟩ x hc) hs (ix2 r (0 : Fin 1)) = x (ix3 (0 : Fin 1) r k) :=
  (slice2_axis1_apply o _ hs r (0 : Fin 1) k (by rw [hk]; rfl)).trans (shapeCast_1ab_ab_apply x hc r k)

/-- Row k of the transpose of a [1, a, b] block (the unit axis dropped first; the slice at row offset o = k) reads at
    column q the block's entry (0, q, k). -/
theorem transposed_row_apply {α : Type} {a b : ℕ} (o : ℕ) (x : (⟨3, ![1, a, b]⟩ : Shape).Idx → α)
    (hc : (⟨3, ![1, a, b]⟩ : Shape).ShapeCasts ⟨2, ![a, b]⟩) (ht : (⟨2, ![a, b]⟩ : Shape).Transposes [1, 0] ⟨2, ![b, a]⟩)
    (hs : (⟨2, ![b, a]⟩ : Shape).Slices ![o, 0] ⟨2, ![1, a]⟩) (q : Fin a) (k : Fin b) (hk : k.val = o) :
    extractStridedSlice ⟨2, ![1, a]⟩ ![o, 0] (transpose ⟨2, ![b, a]⟩ [1, 0] (shapeCast ⟨2, ![a, b]⟩ x hc) ht) hs (ix2 (0 : Fin 1) q)
      = x (ix3 (0 : Fin 1) q k) :=
  (slice2_axis0_apply o _ hs (0 : Fin 1) q k (by rw [hk]; rfl)).trans
    ((transpose_ix2_apply _ ht k q).trans (shapeCast_1ab_ab_apply x hc q k))

end Cert.LibColumns
-- ==== Proof.Payload.lean ====
/-
  The kernel body's arithmetic, read at an index.

  One grid point handles 512 query rows of one batch against all 2048 keys. With the query block `x0`, the key and
  value rows `ks`, `vs` (the two carried buffers) and the mask block `x3` (mask bits widened to 32-bit words):
  * the weight block at row `p`, key `j` is `weightRow` of row `p`'s logits (a nonzero mask word masks the key);
  * the output block at row `p`, column `d` is the weights' combination of the value rows;
  * the remaining payloads only add or drop a leading unit axis, or change the float format (the identity here).
-/
import proofs.«413374_j4724464026136_3_alg».proof.Proof.Gen.KernelIdeal.Skeleton
import proofs.«413374_j4724464026136_3_alg».proof.Proof.AttnSpec
import proofs.«413374_j4724464026136_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Softmax Cert.Attn

/-- A mask word as a bit: set exactly when the word is not zero. -/
def maskBit (w : BitVec 32) : BitVec 1 := if w = 0#32 then 0#1 else 1#1

/-! ## Layout, literals and the mask -/

/-- A vector [a] cast to a one-column matrix [a, 1] reads, at (p, 0), the vector's entry p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The scale literal is the reciprocal of the temperature. -/
theorem named_invTemp :
    Named.named (F := Ideal) Cert.KernelIdeal.κ "inv_temp" (φ := .f32) 0x3DB504F3#32 = invTemp :=
  IdealRules.named_const.ideal_named_scalar _ _ _ _ rfl

/-- The masking literal is `-∞`. -/
theorem named_negBig :
    Named.named (F := Ideal) Cert.KernelIdeal.κ "neg_big" (φ := .f32) 0xFF333332#32 = (⊥ : EReal) :=
  IdealRules.named_const.ideal_named_scalar _ _ _ _ rfl

/-- Selecting on "the mask word is not zero" is the choice on the mask bit. -/
theorem select_mask (w : BitVec 32) (a b : EReal) :
    Scalar.select (IntOp.cmpi .ne w 0#32) a b = if maskBit w = 1#1 then a else b := by
  unfold maskBit
  by_cases hw : w = 0#32
  · rw [if_pos hw, if_neg (by decide : ¬ (0#1 : BitVec 1) = 1#1), hw]
    rfl
  · rw [if_neg hw, if_pos rfl]
    have hc : IntOp.cmpi .ne w 0#32 = 1#1 := by
      show BitVec.ofBool (w != 0#32) = 1#1
      rw [bne_iff_ne.mpr hw]
      rfl
    rw [hc]
    rfl

/-! ## The two contractions -/

/-- The score contraction reads the query block's row coordinate on its axis 0 … -/
theorem lhs_score_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
/-- … and the contraction coordinate on its axis 1; -/
theorem lhs_score_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
/-- the key rows are read at the key coordinate on axis 0 … -/
theorem rhs_score_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
/-- … and the contraction coordinate on axis 1. -/
theorem rhs_score_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The score block at (row `p`, key `j`): the dot product of query row `p` with key row `j`. -/
theorem score_apply (a : FVec Ideal S512x128 .bf16) (b : FVec Ideal S2048x128 .bf16) (p : Fin 512) (j : Fin 2048) :
    matmul (F := Ideal) dot_S512x128_S2048x128_S512x2048_1_1_0_0_n_n none a b (constant (F := Ideal) S512x2048 .f32 0x00000000#32) (ix2 p j)
      = ∑ d : Fin 128, a (ix2 p d) * b (ix2 j d) := by
  simp only [matmul]
  rw [Ideal.matmul_constant_zero_apply, ← Equiv.sum_comp (ValueIdx.contrEquiv1 dot_S512x128_S2048x128_S512x2048_1_1_0_0_n_n 128 rfl rfl).symm]
  refine Finset.sum_congr rfl fun k _ => ?_
  have hk := ValueIdx.contrEquiv1_symm_val dot_S512x128_S2048x128_S512x2048_1_1_0_0_n_n 128 rfl rfl k
  have el : dot_S512x128_S2048x128_S512x2048_1_1_0_0_n_n.lhsIdx (ix2 p j) ((ValueIdx.contrEquiv1 dot_S512x128_S2048x128_S512x2048_1_1_0_0_n_n 128 rfl rfl).symm k) = ix2 p k := funext fun c => Fin.ext (by
    match c with
    | ⟨0, _⟩ => exact lhs_score_0 _ _
    | ⟨1, _⟩ => exact (lhs_score_1 _ _).trans hk)
  have er : dot_S512x128_S2048x128_S512x2048_1_1_0_0_n_n.rhsIdx (ix2 p j) ((ValueIdx.contrEquiv1 dot_S512x128_S2048x128_S512x2048_1_1_0_0_n_n 128 rfl rfl).symm k) = ix2 j k := funext fun c => Fin.ext (by
    match c with
    | ⟨0, _⟩ => exact rhs_score_0 _ _
    | ⟨1, _⟩ => exact (rhs_score_1 _ _).trans hk)
  rw [el, er]

/-- The output contraction reads the weight block's row coordinate on its axis 0 … -/
theorem lhs_out_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
/-- … and the contraction coordinate (the key) on its axis 1; -/
theorem lhs_out_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
/-- the value rows are read at the contraction coordinate on axis 0 … -/
theorem rhs_out_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
/-- … and the output column on axis 1. -/
theorem rhs_out_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The output block at (row `p`, column `d`): the combination over the keys of weight times value. -/
theorem combine_apply (a : FVec Ideal S512x2048 .bf16) (b : FVec Ideal S2048x128 .bf16) (p : Fin 512) (d : Fin 128) :
    matmul (F := Ideal) dot_S512x2048_S2048x128_S512x128_1_0_0_1_n_n none a b (constant (F := Ideal) S512x128 .f32 0x00000000#32) (ix2 p d)
      = ∑ j : Fin 2048, a (ix2 p j) * b (ix2 j d) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 p d) ((ValueIdx.contrEquiv1 dot_S512x2048_S2048x128_S512x128_1_0_0_1_n_n 2048 rfl rfl).symm k) = ix2 p k := funext fun c => Fin.ext (by
    match c with
    | ⟨0, _⟩ => exact lhs_out_0 _ _
    | ⟨1, _⟩ => exact (lhs_out_1 _ _).trans hk)
  have er : dot_S512x2048_S2048x128_S512x128_1_0_0_1_n_n.rhsIdx (ix2 p d) ((ValueIdx.contrEquiv1 dot_S512x2048_S2048x128_S512x128_1_0_0_1_n_n 2048 rfl rfl).symm k) = ix2 k d := funext fun c => Fin.ext (by
    match c with
    | ⟨0, _⟩ => exact (rhs_out_0 _ _).trans hk
    | ⟨1, _⟩ => exact rhs_out_1 _ _)
  rw [el, er]

/-! ## The stages of the weight block -/

/-- The masked logits of the block: the scaled scores, the masking literal under a nonzero mask word. -/
def logitBlock (x0 : Vec Ideal S1x512x128 .f32) (ks : Vec Ideal S2048x128 .bf16) (x3 : Vec Ideal S1x512x2048 .i32) :
    FVec Ideal S512x2048 .f32 :=
  have v4 : FVec Ideal S512x128 .f32 := shapeCast S512x128 x0 shapeCasts_S1x512x128_S512x128
  have v5 : FVec Ideal S512x128 .bf16 := truncf .bf16 v4 bitsLt_bf16_f32
  have cst : FVec Ideal S512x2048 .f32 := constant S512x2048 .f32 0x00000000#32
  have v8 : FVec Ideal S512x2048 .f32 := matmul (φ₂ := .bf16) dot_S512x128_S2048x128_S512x2048_1_1_0_0_n_n none v5 ks cst
  have cst_7 : Ideal .f32 := Named.named κ "inv_temp" 0x3DB504F3#32
  have v9 : FVec Ideal S512x2048 .f32 := broadcast S512x2048 cst_7
  have v10 : FVec Ideal S512x2048 .f32 := mulf v8 v9
  have v12 : IVec S512x2048 32 := shapeCast S512x2048 x3 shapeCasts_S1x512x2048_S512x2048
  have cst_11 : IVec S512x2048 32 := constantI S512x2048 32 0#32
  have v13 : IVec S512x2048 1 := cmpi .ne v12 cst_11
  have cst_12 : Ideal .f32 := Named.named κ "neg_big" 0xFF333332#32
  have v14 : FVec Ideal S512x2048 .f32 := broadcast S512x2048 cst_12
  select v13 v14 v10

/-- The maximum of each row of a block, from `-∞`. -/
def maxCol (s : FVec Ideal S512x2048 .f32) : FVec Ideal S512 .f32 :=
  multiReduction .maximumf [1] S512 s 0xFF800000#32 reduces_S512x2048_S512 (.inl rfl) rfl

/-- The exponentials of a block shifted by its rows' maxima. -/
def expBlock (s : FVec Ideal S512x2048 .f32) : FVec Ideal S512x2048 .f32 :=
  have v17 : FVec Ideal S512x1 .f32 := shapeCast S512x1 (maxCol s) shapeCasts_S512_S512x1
  have v18 : FVec Ideal S512x2048 .f32 := broadcastTo S512x2048 v17 broadcasts_S512x1_S512x2048
  have v19 : FVec Ideal S512x2048 .f32 := subf s v18
  exp v19

/-- The sum of each row of the shifted exponentials. -/
def sumCol (s : FVec Ideal S512x2048 .f32) : FVec Ideal S512 .f32 :=
  multiReduction .add [1] S512 (expBlock s) 0x00000000#32 reduces_S512x2048_S512 (.inl rfl) rfl

/-- The shifted exponentials times the reciprocal of their rows' sums. -/
def softBlock (s : FVec Ideal S512x2048 .f32) : FVec Ideal S512x2048 .f32 :=
  have v22 : FVec Ideal S512x1 .f32 := shapeCast S512x1 (sumCol s) shapeCasts_S512_S512x1
  have cst_15 : Ideal .f32 := Scalar.ofBits .f32 0x3F800000#32
  have v23 : FVec Ideal S512x1 .f32 := broadcast S512x1 cst_15
  have v24 : FVec Ideal S512x1 .f32 := divf v23 v22
  have v25 : FVec Ideal S512x2048 .f32 := broadcastTo S512x2048 v24 broadcasts_S512x1_S512x2048
  mulf (expBlock s) v25

/-- The weight block is these stages in turn. -/
theorem pay4_eq_stages (x0 : Vec Ideal S1x512x128 .f32) (ks : Vec Ideal S2048x128 .bf16) (x3 : Vec Ideal S1x512x2048 .i32) :
    k0_pay4 (F := Ideal) x0 ks x3 = softBlock (logitBlock x0 ks x3) := rfl

/-- The masked logit block at (row `p`, key `j`) is the logit row's entry. -/
theorem logitBlock_apply (x0 : Vec Ideal S1x512x128 .f32) (ks : Vec Ideal S2048x128 .bf16) (x3 : Vec Ideal S1x512x2048 .i32)
    (p : Fin 512) (j : Fin 2048) :
    logitBlock x0 ks x3 (ix2 p j)
      = logitRow (fun d => x0 (ix3 (0 : Fin 1) p d)) (fun j d => ks (ix2 j d))
          (fun j => maskBit (x3 (ix3 (0 : Fin 1) p j))) j := by
  unfold logitBlock logitRow
  refine (select_mask _ _ _).trans ?_
  have hm : shapeCast S512x2048 x3 shapeCasts_S1x512x2048_S512x2048 (ix2 p j) = x3 (ix3 (0 : Fin 1) p j) :=
    shapeCast_1ab_ab_apply x3 _ p j
  have hs : matmul (F := Ideal) (φ₂ := .bf16) dot_S512x128_S2048x128_S512x2048_1_1_0_0_n_n none
        (truncf .bf16 (shapeCast S512x128 x0 shapeCasts_S1x512x128_S512x128 : FVec Ideal S512x128 .f32) bitsLt_bf16_f32) ks
        (constant (F := Ideal) S512x2048 .f32 0x00000000#32) (ix2 p j)
      = ∑ d : Fin 128, x0 (ix3 (0 : Fin 1) p d) * ks (ix2 j d) := by
    refine (score_apply _ ks p j).trans (Finset.sum_congr rfl fun d _ => ?_)
    exact congrArg (· * ks (ix2 j d)) (shapeCast_1ab_ab_apply x0 _ p d)
  rw [hm]
  refine congrArg₂ (fun a b => if maskBit (x3 (ix3 (0 : Fin 1) p j)) = 1#1 then a else b) named_negBig ?_
  exact congrArg₂ (· * ·) hs named_invTemp

/-- The row maxima of a block, at row `p`. -/
theorem maxCol_apply (s : FVec Ideal S512x2048 .f32) (p : Fin 512) :
    maxCol s (ix1 p) = rowMax (fun j : Fin 2048 => s (ix2 p j)) := by
  unfold maxCol rowMax
  refine (Ideal.multiReduction_maximumf_single s _ reduces_S512x2048_S512 (.inl rfl) rfl (ix1 p)).trans ?_
  refine congrArg₂ (fun (b : EReal) (f : Fin 2048 → EReal) => Finset.univ.fold max b f) ofBits_negInf ?_
  funext j
  exact congrArg s (funext fun c => Fin.ext (by
    match c with
    | ⟨0, _⟩ => rfl
    | ⟨1, _⟩ => rfl))

/-- The shifted exponentials at (row `p`, key `j`). -/
theorem expBlock_apply (s : FVec Ideal S512x2048 .f32) (p : Fin 512) (j : Fin 2048) :
    expBlock s (ix2 p j) = Ideal.exp (s (ix2 p j) - rowMax (fun j : Fin 2048 => s (ix2 p j))) := by
  unfold expBlock
  refine congrArg (fun m : EReal => Ideal.exp (s (ix2 p j) - m)) ?_
  exact (Cert.LibColumns.broadcastTo_a1_ab_apply _ _ p j).trans
    ((shapeCast_a_a1_apply _ _ p (0 : Fin 1)).trans (maxCol_apply s p))

/-- The row sums of the shifted exponentials, at row `p`. -/
theorem sumCol_apply (s : FVec Ideal S512x2048 .f32) (p : Fin 512) :
    sumCol s (ix1 p) = rowSum (fun j : Fin 2048 => s (ix2 p j)) := by
  unfold sumCol rowSum
  refine (Ideal.multiReduction_add_single (expBlock s) _ reduces_S512x2048_S512 (.inl rfl) rfl (ix1 p)).trans ?_
  refine Finset.sum_congr rfl fun j _ => ?_
  refine Eq.trans (congrArg (expBlock s) (funext fun c => Fin.ext (by
    match c with
    | ⟨0, _⟩ => rfl
    | ⟨1, _⟩ => rfl))) (expBlock_apply s p j)

/-- The normalised block at (row `p`, key `j`) is the row's weight. -/
theorem softBlock_apply (s : FVec Ideal S512x2048 .f32) (p : Fin 512) (j : Fin 2048) :
    softBlock s (ix2 p j) = weightRow (fun j : Fin 2048 => s (ix2 p j)) j := by
  unfold softBlock weightRow
  refine congrArg₂ (· * ·) (expBlock_apply s p j) ?_
  refine (Cert.LibColumns.broadcastTo_a1_ab_apply _ _ p j).trans ?_
  refine congrArg₂ Ideal.div ofBits_one ?_
  exact (shapeCast_a_a1_apply _ _ p (0 : Fin 1)).trans (sumCol_apply s p)

/-! ## The payloads -/

/-- The weight block at (row `p`, key `j`). -/
theorem pay4_apply (x0 : Vec Ideal S1x512x128 .f32) (ks : Vec Ideal S2048x128 .bf16) (x3 : Vec Ideal S1x512x2048 .i32)
    (p : Fin 512) (j : Fin 2048) :
    k0_pay4 (F := Ideal) x0 ks x3 (ix2 p j)
      = weightRow (logitRow (fun d => x0 (ix3 (0 : Fin 1) p d)) (fun j d => ks (ix2 j d))
          (fun j => maskBit (x3 (ix3 (0 : Fin 1) p j)))) j := by
  rw [pay4_eq_stages]
  refine (softBlock_apply _ p j).trans ?_
  exact congrArg (fun r => weightRow r j) (funext fun j' => logitBlock_apply x0 ks x3 p j')

/-- The stored weight block only gains a leading unit axis. -/
theorem pay5_apply (x0 : Vec Ideal S1x512x128 .f32) (ks : Vec Ideal S2048x128 .bf16) (x3 : Vec Ideal S1x512x2048 .i32)
    (p : Fin 512) (j : Fin 2048) :
    k0_pay5 (F := Ideal) x0 ks x3 (ix3 (0 : Fin 1) p j) = k0_pay4 (F := Ideal) x0 ks x3 (ix2 p j) := by
  unfold k0_pay5
  exact shapeCast_ab_1ab_apply _ _ (0 : Fin 1) p j

/-- The output block at (row `p`, column `d`). -/
theorem pay6_apply (x0 : Vec Ideal S1x512x128 .f32) (ks vs : Vec Ideal S2048x128 .bf16) (x3 : Vec Ideal S1x512x2048 .i32)
    (p : Fin 512) (d : Fin 128) :
    k0_pay6 (F := Ideal) x0 ks vs x3 (ix2 p d)
      = outRow (fun j => k0_pay4 (F := Ideal) x0 ks x3 (ix2 p j)) (fun j d => vs (ix2 j d)) d := by
  unfold k0_pay6 outRow
  exact combine_apply _ vs p d

/-- The stored output block only gains a leading unit axis. -/
theorem pay1_apply (y : FVec Ideal S512x128 .f32) (p : Fin 512) (d : Fin 128) :
    k0_pay1 (F := Ideal) y (ix3 (0 : Fin 1) p d) = y (ix2 p d) := by
  unfold k0_pay1
  exact shapeCast_ab_1ab_apply y _ (0 : Fin 1) p d

/-- The carried key rows are the key block without its unit axis. -/
theorem pay2_apply (x1 : Vec Ideal S1x2048x128 .f32) (j : Fin 2048) (d : Fin 128) :
    k0_pay2 (F := Ideal) x1 (ix2 j d) = x1 (ix3 (0 : Fin 1) j d) := by
  unfold k0_pay2
  rw [shapeCast_self]
  exact shapeCast_1ab_ab_apply x1 _ j d

/-- The carried value rows are the value block without its unit axis. -/
theorem pay3_apply (x2 : Vec Ideal S1x2048x128 .f32) (j : Fin 2048) (d : Fin 128) :
    k0_pay3 (F := Ideal) x2 (ix2 j d) = x2 (ix3 (0 : Fin 1) j d) := by
  unfold k0_pay3
  rw [shapeCast_self]
  exact shapeCast_1ab_ab_apply x2 _ j d

end Cert.KernelIdeal.Payload

end
-- ==== Proof.Blocks.lean ====
/-
  From blocks to arrays: after the run the two result arrays are the specification's `out` and `attn` of the
  argument arrays.

  Point `t = 4 b + r` handles query rows `512 r … 512 r + 511` of batch `b`. What it writes back to either result
  is the block of the specification's array at (b, r): its query block, the carried key and value rows and its mask
  block are the argument arrays read at that batch and those rows (the mask through the widening of its bits).
  The 64 blocks cover both arrays.
-/
import proofs.«413374_j4724464026136_3_alg».proof.Proof.Gen.KernelIdeal.Value
import proofs.«413374_j4724464026136_3_alg».proof.Proof.Pieces
import proofs.«413374_j4724464026136_3_alg».proof.Proof.Scratch
import proofs.«413374_j4724464026136_3_alg».proof.Proof.Payload
import proofs.«413374_j4724464026136_3_alg».proof.Proof.AttnSpec

set_option maxRecDepth 16384

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Attn

variable (m : (ℓ : Loc nD τ sig) → Buf (Elt Ideal) ℓ)

/-- The specification's weights of core `c`'s argument arrays. -/
abbrev attnOf (c : Dev nD) : S16x2048x2048.Idx → EReal :=
  attn (m ((c : Thread nD τ).loc main_arg0)) (m ((c : Thread nD τ).loc main_arg1)) (m ((c : Thread nD τ).loc main_arg3))

/-- The specification's output of core `c`'s argument arrays. -/
abbrev outOf (c : Dev nD) : S16x2048x128.Idx → EReal :=
  out (m ((c : Thread nD τ).loc main_arg0)) (m ((c : Thread nD τ).loc main_arg1)) (m ((c : Thread nD τ).loc main_arg2))
    (m ((c : Thread nD τ).loc main_arg3))

/-! ## A point's blocks, at their literal types -/

/-- The query block of point `t`. -/
abbrev qblk (c : Dev nD) (t : Fin cfg0.N) : Vec Ideal S1x512x128 .f32 := iblk m c 0 t
/-- The key block of point `t`. -/
abbrev kblk (c : Dev nD) (t : Fin cfg0.N) : Vec Ideal S1x2048x128 .f32 := iblk m c 1 t
/-- The value block of point `t`. -/
abbrev vblk (c : Dev nD) (t : Fin cfg0.N) : Vec Ideal S1x2048x128 .f32 := iblk m c 2 t
/-- The mask block of point `t`, as 32-bit words. -/
abbrev mblk (c : Dev nD) (t : Fin cfg0.N) : Vec Ideal S1x512x2048 .i32 := iblk m c 3 t

/-! ## What a point leaves in the two results' staging buffers -/

/-- After any point the weight buffer holds the softmax payload of the point's query block, its batch's key rows and
    its mask block: at a batch's first tile the run's own fill of the key rows, later what the carried buffer holds. -/
theorem attn_block (c : Dev nD) (t : Fin cfg0.N) :
    (outsAt0 m c t.val t.isLt).2.1 = k0_pay5 (F := Ideal) (qblk m c t) (k0_pay2 (F := Ideal) (kblk m c t)) (mblk m c t) := by
  by_cases h0 : t.val % 4 = 0
  · rw [outsAt0_A m c t h0]; dsimp only
    exact Pieces.out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)
  · have hk := (Scratch.carried (F := Ideal) m c t).1
    rw [outsAt0_B m c t h0] at hk ⊢; dsimp only at hk ⊢
    unfold sout0_B_0 at hk
    rw [Pieces.out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, hk]

/-- Likewise the output buffer holds the product payload of those with its batch's value rows. -/
theorem out_block (c : Dev nD) (t : Fin cfg0.N) :
    (outsAt0 m c t.val t.isLt).1 = k0_pay1 (F := Ideal) (k0_pay6 (F := Ideal) (qblk m c t) (k0_pay2 (F := Ideal) (kblk m c t))
      (k0_pay3 (F := Ideal) (vblk m c t)) (mblk m c t)) := by
  by_cases h0 : t.val % 4 = 0
  · rw [outsAt0_A m c t h0]; dsimp only
    exact Pieces.out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)
  · have hk := (Scratch.carried (F := Ideal) m c t).1
    have hv := (Scratch.carried (F := Ideal) m c t).2
    rw [outsAt0_B m c t h0] at hk hv ⊢; dsimp only at hk hv ⊢
    unfold sout0_B_0 at hk
    unfold sout0_B_1 at hv
    rw [Pieces.out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, hk, hv]

/-! ## The index maps, decided over the 64 points -/

/-- At every point the query, mask and both result windows sit at block (b, r, 0) and the key and value windows at
    block (b, 0, 0), with b below 16 and r below 4. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (2 : Fin 3) = 0 ∧ win0_5.index t (0 : Fin 3) ≤ 15 ∧ win0_5.index t (1 : Fin 3) ≤ 3 :=
  (by decide +kernel : ∀ t : Fin grid0.N, _)

/-- Every block (b, r, 0) of the weights is some point's. -/
theorem idx_onto : ∀ (b : Fin 16) (r : Fin 4), ∃ t : Fin cfg0.N, win0_5.index t = ![b.val, r.val, 0] :=
  (by decide +kernel : ∀ (b : Fin 16) (r : Fin 4), ∃ t : Fin grid0.N, win0_5.index t = ![b.val, r.val, 0])

/-! ## The arrays the region finds -/

/-- The mask as the region finds it: each bit widened to a 32-bit word by the host operation before the region. -/
theorem V_mask (c : Dev nD) :
    (V m c main_v0 : S16x2048x2048.Idx → BitVec 32) = extui 32 (m ((c : Thread nD τ).loc main_arg3)) natLt_1_32 := by
  dsimp only [Gen.V, Gen.hostOps0]; after_results

/-- A widened bit is not zero exactly when the bit is set. -/
theorem maskBit_setWidth (w : BitVec 1) : Payload.maskBit (w.setWidth 32) = w := by
  rcases BitVec.eq_zero_or_eq_one w with h | h <;> subst h <;> decide

/-! ## The blocks are the argument arrays read at the point's batch and rows -/

section Reads

variable (c : Dev nD) (t : Fin cfg0.N) (z : Fin 1) (p : Fin 512) (jj : Fin 2048)

/-- The array index of entry (z, p, jj) of the point's weight block. -/
abbrev wIdx : S16x2048x2048.Idx := ((cfg0.win 5).blk t).view.emb (ix3 z p jj)

theorem qblk_apply (d : Fin 128) :
    qblk m c t (ix3 (0 : Fin 1) p d) = m ((c : Thread nD τ).loc main_arg0) (ix3 (wIdx t z p jj 0) (wIdx t z p jj 1) d) := by
  show V m c main_arg0 (((cfg0.win 0).blk t).view.emb (ix3 (0 : Fin 1) p d)) = _
  rw [V_main_arg0]
  obtain ⟨e0, e1, e2, -⟩ := idx_facts t
  congr 1; funext a; apply Fin.ext
  match a with
  | ⟨0, _⟩ => show win0_0.index t (0 : Fin 3) * 1 + 1 * 0 = win0_5.index t (0 : Fin 3) * 1 + 1 * z.val; have := z.isLt; omega
  | ⟨1, _⟩ => show win0_0.index t (1 : Fin 3) * 512 + 1 * p.val = win0_5.index t (1 : Fin 3) * 512 + 1 * p.val; omega
  | ⟨2, _⟩ => show win0_0.index t (2 : Fin 3) * 128 + 1 * d.val = d.val; omega

theorem kblk_apply (j : Fin 2048) (d : Fin 128) :
    kblk m c t (ix3 (0 : Fin 1) j d) = m ((c : Thread nD τ).loc main_arg1) (ix3 (wIdx t z p jj 0) j d) := by
  show V m c main_arg1 (((cfg0.win 1).blk t).view.emb (ix3 (0 : Fin 1) j d)) = _
  rw [V_main_arg1]
  obtain ⟨-, -, -, e0, e1, e2, -⟩ := idx_facts t
  congr 1; funext a; apply Fin.ext
  match a with
  | ⟨0, _⟩ => show win0_1.index t (0 : Fin 3) * 1 + 1 * 0 = win0_5.index t (0 : Fin 3) * 1 + 1 * z.val; have := z.isLt; omega
  | ⟨1, _⟩ => show win0_1.index t (1 : Fin 3) * 2048 + 1 * j.val = j.val; omega
  | ⟨2, _⟩ => show win0_1.index t (2 : Fin 3) * 128 + 1 * d.val = d.val; omega

theorem vblk_apply (j : Fin 2048) (d : Fin 128) :
    vblk m c t (ix3 (0 : Fin 1) j d) = m ((c : Thread nD τ).loc main_arg2) (ix3 (wIdx t z p jj 0) j d) := by
  show V m c main_arg2 (((cfg0.win 2).blk t).view.emb (ix3 (0 : Fin 1) j d)) = _
  rw [V_main_arg2]
  obtain ⟨-, -, -, -, -, -, e0, e1, e2, -⟩ := idx_facts t
  congr 1; funext a; apply Fin.ext
  match a with
  | ⟨0, _⟩ => show win0_2.index t (0 : Fin 3) * 1 + 1 * 0 = win0_5.index t (0 : Fin 3) * 1 + 1 * z.val; have := z.isLt; omega
  | ⟨1, _⟩ => show win0_2.index t (1 : Fin 3) * 2048 + 1 * j.val = j.val; omega
  | ⟨2, _⟩ => show win0_2.index t (2 : Fin 3) * 128 + 1 * d.val = d.val; omega

theorem mblk_apply (j : Fin 2048) :
    Payload.maskBit (mblk m c t (ix3 (0 : Fin 1) p j))
      = m ((c : Thread nD τ).loc main_arg3) (ix3 (wIdx t z p jj 0) (wIdx t z p jj 1) j) := by
  show Payload.maskBit ((V m c main_v0 : S16x2048x2048.Idx → BitVec 32) (((cfg0.win 3).blk t).view.emb (ix3 (0 : Fin 1) p j))) = _
  rw [V_mask, extui_apply, maskBit_setWidth]
  obtain ⟨-, -, -, -, -, -, -, -, -, e0, e1, e2, -⟩ := idx_facts t
  congr 1; funext a; apply Fin.ext
  match a with
  | ⟨0, _⟩ => show win0_3.index t (0 : Fin 3) * 1 + 1 * 0 = win0_5.index t (0 : Fin 3) * 1 + 1 * z.val; have := z.isLt; omega
  | ⟨1, _⟩ => show win0_3.index t (1 : Fin 3) * 512 + 1 * p.val = win0_5.index t (1 : Fin 3) * 512 + 1 * p.val; omega
  | ⟨2, _⟩ => show win0_3.index t (2 : Fin 3) * 2048 + 1 * j.val = j.val; omega

/-- The weight index's key coordinate is the block's. -/
theorem wIdx_key : wIdx t z p jj 2 = jj := by
  obtain ⟨-, -, -, -, -, -, -, -, -, -, -, -, -, -, -, e2, -⟩ := idx_facts t
  apply Fin.ext
  show win0_5.index t (2 : Fin 3) * 2048 + 1 * jj.val = jj.val; omega

/-- Row p of the point's logits is row (b, 512 r + p) of the arrays' logits. -/
theorem logits_block :
    logitRow (fun d => qblk m c t (ix3 (0 : Fin 1) p d)) (fun j d => k0_pay2 (F := Ideal) (kblk m c t) (ix2 j d))
        (fun j => Payload.maskBit (mblk m c t (ix3 (0 : Fin 1) p j)))
      = logits (m ((c : Thread nD τ).loc main_arg0)) (m ((c : Thread nD τ).loc main_arg1)) (m ((c : Thread nD τ).loc main_arg3))
          (wIdx t z p jj 0) (wIdx t z p jj 1) := by
  unfold logits
  congr 1
  · funext d; exact qblk_apply m c t z p jj d
  · funext j d; rw [Payload.pay2_apply]; exact kblk_apply m c t z p jj j d
  · funext j; exact mblk_apply m c t z p jj j

end Reads

/-! ## The weights -/

/-- What point `t` writes back to the weights is block `t` of the specification's weights. -/
theorem flushed5_eq (c : Dev nD) (t : Fin cfg0.N) :
    (dats m 0 c).flushed 5 t = ((cfg0.win 5).blk t).view.read (Elt Ideal) (attnOf m c) := by
  rw [Value.flushed5, attn_block]
  funext y
  obtain ⟨z, p, jj, rfl⟩ : ∃ (z : Fin 1) (p : Fin 512) (jj : Fin 2048), y = ix3 z p jj := ⟨y 0, y 1, y 2, eq_ix3 y⟩
  obtain rfl : z = 0 := Subsingleton.elim _ _
  show k0_pay5 (F := Ideal) (qblk m c t) (k0_pay2 (F := Ideal) (kblk m c t)) (mblk m c t) (ix3 (0 : Fin 1) p jj)
    = weightRow (logits (m ((c : Thread nD τ).loc main_arg0)) (m ((c : Thread nD τ).loc main_arg1))
        (m ((c : Thread nD τ).loc main_arg3)) (wIdx t 0 p jj 0) (wIdx t 0 p jj 1)) (wIdx t 0 p jj 2)
  rw [Payload.pay5_apply, Payload.pay4_apply, logits_block m c t 0 p jj, wIdx_key]

/-- An index of the weights is in point `t`'s block iff each coordinate is in the block's range on its axis. -/
theorem mem_blk5 (t : Fin cfg0.N) (i : S16x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v1_1).slice (win0_5.rect t)).set ↔ _
  rw [View.set_slice_whole, Rect.mem_set_unit]
  exact Iff.rfl

/-- Every index of the weights is in some point's block: batch `i 0`, query tile `i 1 / 512`. -/
theorem cover5 (i : S16x2048x2048.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

theorem final_attn (c : Dev nD) : (dats m 0 c).arrAt 5 cfg0.N = attnOf m c :=
  (dats m 0 c).arrAt_eq_of_cover 5 (attnOf m c) (fun t _ => flushed5_eq m c t) cover5

/-! ## The output -/

section OutReads

variable (c : Dev nD) (t : Fin cfg0.N) (z : Fin 1) (p : Fin 512) (d : Fin 128)

/-- The array index of entry (z, p, d) of the point's output block. -/
abbrev oIdx : S16x2048x128.Idx := ((cfg0.win 4).blk t).view.emb (ix3 z p d)

/-- The output block and the weight block of a point sit at the same batch … -/
theorem oIdx_batch (jj : Fin 2048) : (oIdx t z p d 0 : Fin 16) = (wIdx t z p jj 0 : Fin 16) := by
  obtain ⟨-, -, -, -, -, -, -, -, -, -, -, -, e0, -⟩ := idx_facts t
  apply Fin.ext
  show win0_4.index t (0 : Fin 3) * 1 + 1 * z.val = win0_5.index t (0 : Fin 3) * 1 + 1 * z.val; omega

/-- … and the same query rows, … -/
theorem oIdx_row (jj : Fin 2048) : (oIdx t z p d 1 : Fin 2048) = (wIdx t z p jj 1 : Fin 2048) := by
  obtain ⟨-, -, -, -, -, -, -, -, -, -, -, -, -, e1, -⟩ := idx_facts t
  apply Fin.ext
  show win0_4.index t (1 : Fin 3) * 512 + 1 * p.val = win0_5.index t (1 : Fin 3) * 512 + 1 * p.val; omega

/-- … and the output block spans all 128 columns. -/
theorem oIdx_col : (oIdx t z p d 2 : Fin 128) = d := by
  obtain ⟨-, -, -, -, -, -, -, -, -, -, -, -, -, -, e2, -⟩ := idx_facts t
  apply Fin.ext
  show win0_4.index t (2 : Fin 3) * 128 + 1 * d.val = d.val; omega

end OutReads

/-- What point `t` writes back to the output is block `t` of the specification's output. -/
theorem flushed4_eq (c : Dev nD) (t : Fin cfg0.N) :
    (dats m 0 c).flushed 4 t = ((cfg0.win 4).blk t).view.read (Elt Ideal) (outOf m c) := by
  rw [Value.flushed4, out_block]
  funext y
  obtain ⟨z, p, d, rfl⟩ : ∃ (z : Fin 1) (p : Fin 512) (d : Fin 128), y = ix3 z p d := ⟨y 0, y 1, y 2, eq_ix3 y⟩
  obtain rfl : z = 0 := Subsingleton.elim _ _
  show k0_pay1 (F := Ideal) (k0_pay6 (F := Ideal) (qblk m c t) (k0_pay2 (F := Ideal) (kblk m c t))
        (k0_pay3 (F := Ideal) (vblk m c t)) (mblk m c t)) (ix3 (0 : Fin 1) p d)
    = outRow (fun j => weightRow (logits (m ((c : Thread nD τ).loc main_arg0)) (m ((c : Thread nD τ).loc main_arg1))
          (m ((c : Thread nD τ).loc main_arg3)) (oIdx t 0 p d 0) (oIdx t 0 p d 1)) j)
        (fun j d' => m ((c : Thread nD τ).loc main_arg2) (ix3 (oIdx t 0 p d 0) j d')) (oIdx t 0 p d 2)
  rw [Payload.pay1_apply, Payload.pay6_apply, oIdx_col]
  congr 1
  · funext j
    rw [Payload.pay4_apply, logits_block m c t 0 p j, oIdx_batch t 0 p d j, oIdx_row t 0 p d j]
  · funext j d'
    rw [Payload.pay3_apply, vblk_apply m c t 0 p j j d', oIdx_batch t 0 p d j]

/-- An index of the output is in point `t`'s block iff each coordinate is in the block's range on its axis. -/
theorem mem_blk4 (t : Fin cfg0.N) (i : S16x2048x128.Idx) :
    i ∈ ((cfg0.win 4).blk t).view.set ↔ ∀ a : Fin 3, win0_4.index t a * S1x512x128.size a ≤ (i a).val
      ∧ (i a).val < win0_4.index t a * S1x512x128.size a + S1x512x128.size a := by
  show i ∈ ((View.whole main_v1_0).slice (win0_4.rect t)).set ↔ _
  rw [View.set_slice_whole, Rect.mem_set_unit]
  exact Iff.rfl

/-- Every index of the output is in some point's block. -/
theorem cover4 (i : S16x2048x128.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  obtain ⟨-, -, -, -, -, -, -, -, -, -, -, -, e0, e1, e2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

theorem final_out (c : Dev nD) : (dats m 0 c).arrAt 4 cfg0.N = outOf m c :=
  (dats m 0 c).arrAt_eq_of_cover 4 (outOf m c) (fun t _ => flushed4_eq m c t) cover4

end Cert.KernelIdeal.Blocks

end
-- ==== Proof.lean ====
/-
  Masked softmax attention, a Pallas kernel against its jnp reference, equal over the extended reals.

  Both programs compute, for every batch and query row, the logits `q · kᵀ` scaled by the reciprocal of the
  temperature (the kernel multiplies by the folded reciprocal, named `2^20 / 11863283`; the reference divides by the
  temperature `11863283 / 2^20`), set the masked keys to `-∞` (the kernel's finite fill is named `-∞`), subtract the
  row maximum, exponentiate, normalise (the kernel by the reciprocal of the row sum, the reference by the quotient)
  and combine the value rows. The two normalisations agree where the row sum is not zero: that is where the
  precondition is used — finite queries and keys and a row with an unmasked key give a positive sum.

  The kernel's result arrays are read off its generated frame run block by block (Proof/Blocks.lean over the
  generated value leg), the reference's off its generated run stage by stage (Proof/RefValue.lean); both are the
  one specification of Proof/AttnSpec.lean.
-/
import proofs.«413374_j4724464026136_3_alg».proof.Defs
import proofs.«413374_j4724464026136_3_alg».proof.Proof.Gen.Kernel
import proofs.«413374_j4724464026136_3_alg».proof.Proof.Gen.Kernel.Skeleton
import proofs.«413374_j4724464026136_3_alg».proof.Proof.Gen.Kernel.Launch
import proofs.«413374_j4724464026136_3_alg».proof.Proof.Gen.Kernel.Points
import proofs.«413374_j4724464026136_3_alg».proof.Proof.Gen.Kernel.Frame
import proofs.«413374_j4724464026136_3_alg».proof.Proof.Gen.KernelIdeal
import proofs.«413374_j4724464026136_3_alg».proof.Proof.Gen.KernelIdeal.Skeleton
import proofs.«413374_j4724464026136_3_alg».proof.Proof.Gen.KernelIdeal.Launch
import proofs.«413374_j4724464026136_3_alg».proof.Proof.Gen.KernelIdeal.Points
import proofs.«413374_j4724464026136_3_alg».proof.Proof.Gen.KernelIdeal.Frame
import proofs.«413374_j4724464026136_3_alg».proof.Proof.Gen.ReferenceIdeal
import proofs.«413374_j4724464026136_3_alg».proof.Proof.Gen.Pre_finite_inputs
import proofs.«413374_j4724464026136_3_alg».proof.Proof.Gen.KernelIdeal.Value
import proofs.«413374_j4724464026136_3_alg».proof.Proof.Gen.ReferenceIdeal.Run
import proofs.«413374_j4724464026136_3_alg».proof.Proof.Gen.ReferenceIdeal.Read
import proofs.«413374_j4724464026136_3_alg».proof.Proof.AttnSpec
import proofs.«413374_j4724464026136_3_alg».proof.Proof.PreFacts
import proofs.«413374_j4724464026136_3_alg».proof.Proof.RefValue
import proofs.«413374_j4724464026136_3_alg».proof.Proof.Blocks
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The two named literals denote, at the ideal instance, the values the table gives them. -/
theorem preserves : Cert.preserves_Kernel_KernelIdeal :=
  ⟨IdealRules.named_const.statement Cert.KernelIdeal.κ "inv_temp" .f32 0x3DB504F3#32 ((1048576 / 11863283 : ℝ) : EReal) rfl,
   IdealRules.named_const.statement Cert.KernelIdeal.κ "neg_big" .f32 0xFF333332#32 ⊥ rfl⟩

/-- Both programs end at the specification's `out` and `attn` of the (agreeing) argument arrays. -/
theorem algebraic : Cert.algebraic_KernelIdeal_ReferenceIdeal := by
  intro m ρ m' ρ' hpre hagree
  refine ⟨fun c => Cert.KernelIdeal.Blocks.outOf m c, fun c => Cert.KernelIdeal.Blocks.attnOf m c, ?_, ?_⟩
  · exact (θ_run Cert.KernelIdeal.defs _ _).mono
      (fun r h c => ⟨(h c).1.trans (Cert.KernelIdeal.Blocks.final_out m c),
        (h c).2.1.trans (Cert.KernelIdeal.Blocks.final_attn m c), (h c).2.2⟩)
      (Cert.KernelIdeal.Value.run_blocks (F := Ideal) m ρ)
  · refine (θ_run Cert.ReferenceIdeal.defs _ _).mono (fun r h c => ?_) (Cert.ReferenceIdeal.Value.run (F := Ideal) m' ρ')
    obtain ⟨hq, hk, hm⟩ := Cert.Attn.of_pre _ _ _ _ (hpre c)
    have H := Cert.Attn.rowSum_logits_ne_zero _ _ _ hq hk hm
    refine ⟨(h c).1.trans ?_, (h c).2.1.trans ?_, (h c).2.2⟩
    · rw [Cert.ReferenceIdeal.Read.val_main_v15_eq, (hagree c).1, (hagree c).2.1, (hagree c).2.2.1, (hagree c).2.2.2]
      exact Cert.ReferenceIdeal.RefValue.out_eq _ _ _ _ H
    · rw [Cert.ReferenceIdeal.Read.val_main_v14_eq, (hagree c).1, (hagree c).2.1, (hagree c).2.2.2]
      exact Cert.ReferenceIdeal.RefValue.attn_eq _ _ _ H

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
